-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S100000x16 : S_.BroadcastsInDim S100000x16 (![] : Fin 0 → Fin S100000x16.rank)
  reducesTo_S100000x16_S_d0_1 : S100000x16.ReducesTo [0, 1] S_
  bcast_S_S3200000 : S_.BroadcastsInDim S3200000 (![] : Fin 0 → Fin S3200000.rank)
  reducesTo_S3200000_S_d0 : S3200000.ReducesTo [0] S_

variable [Facts]

def fn_part2 {F : FTy → Type} [FloatOps F] (main_arg7 : FVec F S100000x16 .f32) (main_arg8 : FVec F S3200000 .f32) (main_v33 : IVec S_ 1) : IVec S_ 1 :=
  let main_v34 : FVec F S100000x16 .f32 := Host.absf main_arg7
  let main_cst_12 : FVec F S_ .f32 := constant S_ .f32 0x7F800000#32
  let main_v35 : FVec F S100000x16 .f32 := broadcastInDim S100000x16 ![] bcast_S_S100000x16 main_cst_12
  let main_v36 : IVec S100000x16 1 := cmpf .olt main_v34 main_v35
  let main_c_13 : IVec S_ 1 := constantI S_ 1 1#1
  let main_v37 : IVec S_ 1 := (fun x v => Host.reduce IntOp.andi x v reducesTo_S100000x16_S_d0_1 h_S_) main_v36 main_c_13
  let main_v38 : IVec S_ 1 := andi main_v33 main_v37
  let main_v39 : FVec F S3200000 .f32 := Host.absf main_arg8
  let main_cst_14 : FVec F S_ .f32 := constant S_ .f32 0x7F800000#32
  let main_v40 : FVec F S3200000 .f32 := broadcastInDim S3200000 ![] bcast_S_S3200000 main_cst_14
  let main_v41 : IVec S3200000 1 := cmpf .olt main_v39 main_v40
  let main_c_15 : IVec S_ 1 := constantI S_ 1 1#1
  let main_v42 : IVec S_ 1 := (fun x v => Host.reduce IntOp.andi x v reducesTo_S3200000_S_d0 h_S_) main_v41 main_c_15
  let main_v43 : IVec S_ 1 := andi main_v38 main_v42
  main_v43

def fn_part1 {F : FTy → Type} [FloatOps F] (main_arg4 : FVec F S16 .f32) (main_arg5 : FVec F S32x16 .f32) (main_arg6 : FVec F S16 .f32) (main_arg7 : FVec F S100000x16 .f32) (main_arg8 : FVec F S3200000 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg5
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_v33

def fn {F : FTy → Type} [FloatOps F] (main_arg0 : FVec F S100000x512 .f32) (main_arg1 : FVec F S512x32 .f32) (main_arg2 : FVec F S32 .f32) (main_arg3 : FVec F S32x16 .f32) (main_arg4 : FVec F S16 .f32) (main_arg5 : FVec F S32x16 .f32) (main_arg6 : FVec F S16 .f32) (main_arg7 : FVec F S100000x16 .f32) (main_arg8 : FVec F S3200000 .f32) (main_arg9 : IVec S3200000 32) (main_arg10 : IVec S3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_v13 main_v16
-- ==== Kernel.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S100000x32 : Shape := ⟨2, ![100000, 32]⟩
abbrev S5000x512 : Shape := ⟨2, ![5000, 512]⟩
abbrev S5000x32 : Shape := ⟨2, ![5000, 32]⟩
abbrev S1x32 : Shape := ⟨2, ![1, 32]⟩
abbrev S3200000x1 : Shape := ⟨2, ![3200000, 1]⟩
abbrev S_ : Shape := ⟨0, ![]⟩
abbrev S3200000x32 : Shape := ⟨2, ![3200000, 32]⟩
abbrev S32x32 : Shape := ⟨2, ![32, 32]⟩
abbrev S3200000x16 : Shape := ⟨2, ![3200000, 16]⟩
abbrev S5000x16 : Shape := ⟨2, ![5000, 16]⟩

abbrev nBuf : Space → Nat
  | .hbm => 66
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S32x16, .f32⟩
  | .hbm, ⟨6, _⟩ => ⟨S16, .f32⟩
  | .hbm, ⟨7, _⟩ => ⟨S100000x16, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x32, .f32⟩
  | .hbm, ⟨12, _⟩ => ⟨S3200000x1, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x32, .f32⟩
  | .hbm, ⟨22, _⟩ => ⟨S3200000x32, .f32⟩
  | .hbm, ⟨23, _⟩ => ⟨S3200000x32, .f32⟩
  | .hbm, ⟨24, _⟩ => ⟨S_, .f32⟩
  | .hbm, ⟨25, _⟩ => ⟨S100000x32, .f32⟩
  | .hbm, ⟨26, _⟩ => ⟨S3200000x1, .i32⟩
  | .hbm, ⟨27, _⟩ => ⟨S100000x32, .f32⟩
  | .hbm, ⟨28, _⟩ => ⟨S32x32, .f32⟩
  | .hbm, ⟨29, _⟩ => ⟨S32, .f32⟩
  | .hbm, ⟨30, _⟩ => ⟨S100000x32, .f32⟩
  | .hbm, ⟨31, _⟩ => ⟨S100000x16, .f32⟩
  | .hbm, ⟨32, _⟩ => ⟨S100000x16, .f32⟩
  | .hbm, ⟨33, _⟩ => ⟨S3200000x1, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x16, .f32⟩
  | .hbm, ⟨43, _⟩ => ⟨S3200000x16, .f32⟩
  | .hbm, ⟨44, _⟩ => ⟨S3200000x16, .f32⟩
  | .hbm, ⟨45, _⟩ => ⟨S_, .f32⟩
  | .hbm, ⟨46, _⟩ => ⟨S100000x16, .f32⟩
  | .hbm, ⟨47, _⟩ => ⟨S3200000x1, .i32⟩
  | .hbm, ⟨48, _⟩ => ⟨S100000x16, .f32⟩
  | .hbm, ⟨49, _⟩ => ⟨S3200000x1, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x16, .f32⟩
  | .hbm, ⟨59, _⟩ => ⟨S3200000x16, .f32⟩
  | .hbm, ⟨60, _⟩ => ⟨S3200000x16, .f32⟩
  | .hbm, ⟨61, _⟩ => ⟨S_, .f32⟩
  | .hbm, ⟨62, _⟩ => ⟨S100000x16, .f32⟩
  | .hbm, ⟨63, _⟩ => ⟨S3200000x1, .i32⟩
  | .hbm, ⟨64, _⟩ => ⟨S100000x16, .f32⟩
  | .hbm, ⟨65, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x32, .f32⟩
  | .local _ .vmem, ⟨3, _⟩ => ⟨S32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S32x32, .f32⟩
  | .local _ .vmem, ⟨9, _⟩ => ⟨S32, .f32⟩
  | .local _ .vmem, ⟨10, _⟩ => ⟨S5000x32, .f32⟩
  | .local _ .vmem, ⟨11, _⟩ => ⟨S5000x32, .f32⟩
  | .local _ .vmem, ⟨12, _⟩ => ⟨S5000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  concatenates_S32x16_S32x16_S32x32_d1 : Shape.Concatenates [S32x16, S32x16] S32x32 1
  concatenates_S16_S16_S32_d0 : Shape.Concatenates [S16, S16] S32 0
  shapeCasts_S5000x32_S5000x32 : S5000x32.ShapeCasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S32_S32 : S32.ShapeCasts S32
  slices_S100000x32_S100000x16_0_0 : S100000x32.Slices ![0, 0] S100000x16
  slices_S100000x32_S100000x16_0_16 : S100000x32.Slices ![0, 16] S100000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  dot_S5000x512_S512x32_S5000x32_1_0_0_1_n_n_wf : DotDims.WF S5000x512 S512x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x32_S5000x32_1_0_0_1_n_n_wf : DotDims.WF S5000x32 S32x32 S5000x32 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S100000x16.size a
  hwx2_1 : ∀ i : grid2.Coords, EltTy.bits .f32 = 32 ∨ (Rect.block (s := S100000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)

variable [Facts₀]

def dot_S5000x512_S512x32_S5000x32_1_0_0_1_n_n : DotDims S5000x512 S512x32 S5000x32 where
  lhsContracting := [1]
  rhsContracting := [0]
  lhsNonContracting := [0]
  rhsNonContracting := [1]
  lhsBatch := []
  rhsBatch := []
  wf := dot_S5000x512_S512x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S5000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x16 : Shape := ⟨2, ![100000, 16]⟩
abbrev S3200000 : Shape := ⟨1, ![3200000]⟩
abbrev S100000x32 : Shape := ⟨2, ![100000, 32]⟩
abbrev S1x32 : Shape := ⟨2, ![1, 32]⟩
abbrev S3200000x1 : Shape := ⟨2, ![3200000, 1]⟩
abbrev S_ : Shape := ⟨0, ![]⟩
abbrev S3200000x32 : Shape := ⟨2, ![3200000, 32]⟩
abbrev S1x16 : Shape := ⟨2, ![1, 16]⟩
abbrev S3200000x16 : Shape := ⟨2, ![3200000, 16]⟩

abbrev nBuf : Space → Nat
  | .hbm => 77
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x32, .f32⟩
  | .hbm, ⟨2, _⟩ => ⟨S32, .f32⟩
  | .hbm, ⟨3, _⟩ => ⟨S32x16, .f32⟩
  | .hbm, ⟨4, _⟩ => ⟨S16, .f32⟩
  | .hbm, ⟨5, _⟩ => ⟨S32x16, .f32⟩
  | .hbm, ⟨6, _⟩ => ⟨S16, .f32⟩
  | .hbm, ⟨7, _⟩ => ⟨S100000x16, .f32⟩
  | .hbm, ⟨8, _⟩ => ⟨S3200000, .f32⟩
  | .hbm, ⟨9, _⟩ => ⟨S3200000, .i32⟩
  | .hbm, ⟨10, _⟩ => ⟨S3200000, .i32⟩
  | .hbm, ⟨11, _⟩ => ⟨S100000x32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S3200000x1, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x32, .f32⟩
  | .hbm, ⟨25, _⟩ => ⟨S3200000x32, .f32⟩
  | .hbm, ⟨26, _⟩ => ⟨S3200000x32, .f32⟩
  | .hbm, ⟨27, _⟩ => ⟨S_, .f32⟩
  | .hbm, ⟨28, _⟩ => ⟨S100000x32, .f32⟩
  | .hbm, ⟨29, _⟩ => ⟨S3200000x1, .i32⟩
  | .hbm, ⟨30, _⟩ => ⟨S100000x32, .f32⟩
  | .hbm, ⟨31, _⟩ => ⟨S_, .f32⟩
  | .hbm, ⟨32, _⟩ => ⟨S100000x32, .f32⟩
  | .hbm, ⟨33, _⟩ => ⟨S100000x32, .f32⟩
  | .hbm, ⟨34, _⟩ => ⟨S100000x16, .f32⟩
  | .hbm, ⟨35, _⟩ => ⟨S1x16, .f32⟩
  | .hbm, ⟨36, _⟩ => ⟨S100000x16, .f32⟩
  | .hbm, ⟨37, _⟩ => ⟨S100000x16, .f32⟩
  | .hbm, ⟨38, _⟩ => ⟨S3200000x1, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x16, .f32⟩
  | .hbm, ⟨48, _⟩ => ⟨S3200000x16, .f32⟩
  | .hbm, ⟨49, _⟩ => ⟨S3200000x16, .f32⟩
  | .hbm, ⟨50, _⟩ => ⟨S_, .f32⟩
  | .hbm, ⟨51, _⟩ => ⟨S100000x16, .f32⟩
  | .hbm, ⟨52, _⟩ => ⟨S3200000x1, .i32⟩
  | .hbm, ⟨53, _⟩ => ⟨S100000x16, .f32⟩
  | .hbm, ⟨54, _⟩ => ⟨S100000x16, .f32⟩
  | .hbm, ⟨55, _⟩ => ⟨S1x16, .f32⟩
  | .hbm, ⟨56, _⟩ => ⟨S100000x16, .f32⟩
  | .hbm, ⟨57, _⟩ => ⟨S100000x16, .f32⟩
  | .hbm, ⟨58, _⟩ => ⟨S3200000x1, .f32⟩
  | .hbm, ⟨59, _⟩ => ⟨S_, .i32⟩
  | .hbm, ⟨60, _⟩ => ⟨S3200000, .i32⟩
  | .hbm, ⟨61, _⟩ => ⟨S3200000, .i1⟩
  | .hbm, ⟨62, _⟩ => ⟨S_, .i32⟩
  | .hbm, ⟨63, _⟩ => ⟨S3200000, .i32⟩
  | .hbm, ⟨64, _⟩ => ⟨S3200000, .i32⟩
  | .hbm, ⟨65, _⟩ => ⟨S3200000, .i32⟩
  | .hbm, ⟨66, _⟩ => ⟨S3200000x1, .i32⟩
  | .hbm, ⟨67, _⟩ => ⟨S3200000x16, .f32⟩
  | .hbm, ⟨68, _⟩ => ⟨S3200000x16, .f32⟩
  | .hbm, ⟨69, _⟩ => ⟨S3200000x16, .f32⟩
  | .hbm, ⟨70, _⟩ => ⟨S_, .f32⟩
  | .hbm, ⟨71, _⟩ => ⟨S100000x16, .f32⟩
  | .hbm, ⟨72, _⟩ => ⟨S3200000x1, .i32⟩
  | .hbm, ⟨73, _⟩ => ⟨S100000x16, .f32⟩
  | .hbm, ⟨74, _⟩ => ⟨S100000x16, .f32⟩
  | .hbm, ⟨75, _⟩ => ⟨S100000x16, .f32⟩
  | .hbm, ⟨76, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_c_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S100000x512_S512x32_S100000x32_1_0_0_1_n_n_wf : DotDims.WF S100000x512 S512x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.Spec.lean ====
/-
  The three dense pieces both programs compute, as functions of whole arrays at the ideal values (every float an
  extended real, every operation exact).

  * `dense x w b`: the affine layer x · w + b. Entry (p, q) is the sum over the contraction coordinate k of
    x (p, k) · w (k, q), plus the bias entry b (q). The sum is a finite sum in the extended reals, a commutative monoid
    under addition, so its value does not depend on the order or grouping in which a program accumulates it.
  * `relu h`: entry by entry the larger of h and zero.
  * `reparam mu ls eps`: entry by entry mu + eps · exp ls.
-/
import Idealize.ShloMosaic.PureOps.Ideal.Laws
import Idealize.ShloMosaic.Lib.ValueIdx

noncomputable section

open scoped BigOperators
open Idealize.ShloMosaic Idealize.ShloMosaic.ValueIdx

namespace Cert.Spec

/-- The affine layer x · w + b over an [M, K] matrix, a [K, N] matrix and a length-N bias. -/
def dense {M K N : Nat} (x : FVec Ideal ⟨2, ![M, K]⟩ .f32) (w : FVec Ideal ⟨2, ![K, N]⟩ .f32)
    (b : FVec Ideal ⟨1, ![N]⟩ .f32) : FVec Ideal ⟨2, ![M, N]⟩ .f32 :=
  fun i => (∑ k : Fin K, x (ix2 (i 0) k) * w (ix2 k (i 1))) + b (ix1 (i 1))

theorem dense_apply {M K N : Nat} (x : FVec Ideal ⟨2, ![M, K]⟩ .f32) (w : FVec Ideal ⟨2, ![K, N]⟩ .f32)
    (b : FVec Ideal ⟨1, ![N]⟩ .f32) (p : Fin M) (q : Fin N) :
    dense x w b (ix2 p q) = (∑ k : Fin K, x (ix2 p k) * w (ix2 k q)) + b (ix1 q) := rfl

/-- The larger of each entry and zero. -/
def relu {s : Shape} (h : FVec Ideal s .f32) : FVec Ideal s .f32 := fun i => max (h i) 0

/-- mu + eps · exp ls, entry by entry. -/
def reparam {s : Shape} (mu ls eps : FVec Ideal s .f32) : FVec Ideal s .f32 :=
  fun i => mu i + eps i * Ideal.exp (ls i)

end Cert.Spec

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.Region0.lean ====
import proofs.«170805_j44633300140358_1_alg».proof.Proof.Gen.KernelIdeal.Frame
import proofs.«170805_j44633300140358_1_alg».proof.Proof.Spec
import proofs.«170805_j44633300140358_1_alg».proof.Proof.LibPlainMatmul
import Idealize.ShloMosaic.Lib.Pipeline.Value
import Idealize.ShloMosaic.Lib.ValueLayout

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! The first call: twenty points, point t working on rows 5000 t … 5000 t + 4999 of x against the whole of w and b. -/

/-- The zero offsets of a rank-2 rectangle, as a constant function. -/
theorem hz : (![0, 0] : Fin 2 → Nat) = fun _ => 0 := funext fun a => by fin_cases a <;> rfl

/-- The zero offset of a rank-1 rectangle, as a constant function. -/
theorem hz1 : (![0] : Fin 1 → Nat) = fun _ => 0 := funext fun a => by fin_cases a; rfl

/-- What one point stores, at entry (p, q): the narrowing of both operands is the identity on extended reals, the product
    into the zero matrix is the sum over the contraction coordinate, and the bias, cast to one row and spread down the
    rows, contributes its entry q. -/
theorem pay_apply (x : Vec Ideal S5000x512 .f32) (w : Vec Ideal S512x32 .f32) (b : Vec Ideal S32 .f32)
    (p : Fin 5000) (q : Fin 32) :
    k0_pay1 x w b (ix2 p q) = (∑ k : Fin 512, x (ix2 p k) * w (ix2 k q)) + b (ix1 q) := by
  unfold k0_pay1
  rw [addf_apply]
  refine congrArg₂ (· + ·) ?_ ?_
  · exact Cert.Lib.PlainMatmul.apply dot_S5000x512_S512x32_S5000x32_1_0_0_1_n_n rfl rfl rfl rfl rfl rfl none _ _ p q
  · exact (Cert.Lib.PlainMatmul.rowSpread_apply _ _ p q).trans (shapeCast_a_1a_apply b _ 0 q)

/-- The block indices at point t: the row block of x and of the result is t, their column block 0; w and b have the one
    block 0 on every axis. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- Entry (p, k) of x's block at point t is the array's entry (5000 t + p, k): on each axis a block's entry sits at the
    block index times the block's extent plus its own coordinate. -/
theorem xblk_apply (c : Dev nD) (t : Fin cfg0.N) (p : Fin 5000) (k : Fin 512) (i : S100000x512.Idx)
    (h0 : (i 0).val = t.val * 5000 + p.val) (h1 : (i 1).val = k.val) :
    iblk0 V c 0 t (ix2 p k) = V c main_arg0 i := by
  obtain ⟨e0, e1, -⟩ := idx_facts t
  show V c main_arg0 (((cfg0.win 0).blk t).view.emb (ix2 p k)) = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 512 + 1 * k.val = (i 1).val; omega

/-- w's one block is the whole array: its entry (k, q) is the array's entry (k, q). -/
theorem wblk_apply (c : Dev nD) (t : Fin cfg0.N) (k : Fin 512) (q : Fin 32) (i : S512x32.Idx)
    (h0 : (i 0).val = k.val) (h1 : (i 1).val = q.val) :
    iblk0 V c 1 t (ix2 k q) = V c main_arg1 i := by
  obtain ⟨-, -, e2, e3, -⟩ := idx_facts t
  show V c main_arg1 (((cfg0.win 1).blk t).view.emb (ix2 k q)) = V c main_arg1 i
  refine congrArg _ (funext fun a => Fin.ext ?_)
  match a with
  | ⟨0, _⟩ => show win0_1.index t (0 : Fin 2) * 512 + 1 * k.val = (i 0).val; omega
  | ⟨1, _⟩ => show win0_1.index t (1 : Fin 2) * 32 + 1 * q.val = (i 1).val; omega

/-- b's one block is the whole array: its entry q is the array's entry q. -/
theorem bblk_apply (c : Dev nD) (t : Fin cfg0.N) (q : Fin 32) (i : S32.Idx) (h0 : (i 0).val = q.val) :
    iblk0 V c 2 t (ix1 q) = V c main_arg2 i := by
  obtain ⟨-, -, -, -, e4, -⟩ := idx_facts t
  show V c main_arg2 (((cfg0.win 2).blk t).view.emb (ix1 q)) = V c main_arg2 i
  refine congrArg _ (funext fun a => Fin.ext ?_)
  match a with
  | ⟨0, _⟩ => show win0_2.index t (0 : Fin 1) * 32 + 1 * q.val = (i 0).val; omega

/-- What point t writes back is block t of the affine layer of the arrays the region found: entry (p, q) of the block is
    row 5000 t + p of x against column q of w, plus b's entry q, and that is the layer's entry (5000 t + p, q). -/
theorem flushed_eq (c : Dev nD) (t : Fin cfg0.N) :
    (dat0 V c).flushed 3 t
      = ((cfg0.win 3).blk t).view.read (Elt Ideal) (Cert.Spec.dense (V c main_arg0) (V c main_arg1) (V c main_arg2)) := by
  show (cfg0.win 3).cut (grid0.coords t) ((dat0 V c).after 3 t) = _
  rw [after0_3]
  unfold out0_3
  rw [View.canon_unit_zero hz]
  simp only [View.ld_unit_zero (S := S5000x512) hz, View.ld_unit_zero (S := S512x32) hz, View.ld_unit_zero (S := S32) hz1]
  obtain ⟨-, -, -, -, -, e5, e6⟩ := idx_facts t
  funext j
  obtain ⟨p, q, rfl⟩ : ∃ (p : Fin 5000) (q : Fin 32), j = ix2 p q := ⟨j 0, j 1, eq_ix2 j⟩
  show k0_pay1 (iblk0 V c 0 t) (iblk0 V c 1 t) (iblk0 V c 2 t) (ix2 p q)
    = Cert.Spec.dense (V c main_arg0) (V c main_arg1) (V c main_arg2) (((cfg0.win 3).blk t).view.emb (ix2 p q))
  refine (pay_apply _ _ _ p q).trans ?_
  have hr : ((((cfg0.win 3).blk t).view.emb (ix2 p q)) 0).val = t.val * 5000 + p.val := by
    show win0_3.index t (0 : Fin 2) * 5000 + 1 * p.val = _; omega
  have hc : ((((cfg0.win 3).blk t).view.emb (ix2 p q)) 1).val = q.val := by
    show win0_3.index t (1 : Fin 2) * 32 + 1 * q.val = _; omega
  refine congrArg₂ (· + ·) (Finset.sum_congr rfl fun k _ => congrArg₂ (· * ·) ?_ ?_) ?_
  · exact xblk_apply V c t p k _ hr rfl
  · exact wblk_apply V c t k q _ rfl hc
  · exact bblk_apply V c t q _ hc

/-- An entry of the result array is in point t's block iff each coordinate is in the block's range on its axis. -/
theorem mem_blk (t : Fin cfg0.N) (i : S100000x32.Idx) :
    i ∈ ((cfg0.win 3).blk t).view.set
      ↔ ∀ a : Fin 2, win0_3.index t a * S5000x32.size a ≤ (i a).val
          ∧ (i a).val < win0_3.index t a * S5000x32.size a + S5000x32.size a := by
  show i ∈ ((View.whole main_v0).slice (win0_3.rect t)).set ↔ _
  rw [View.set_slice_whole, Rect.mem_set_unit]
  exact Iff.rfl

/-- The twenty row blocks tile the result: row r lies in the block of point r / 5000, and every point writes back. -/
theorem cover (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have ht : (i 0).val / 5000 < cfg0.N := by show (i 0).val / 5000 < 20; omega
  obtain ⟨-, -, -, -, -, e5, e6⟩ := idx_facts ⟨(i 0).val / 5000, ht⟩
  have e5' : win0_3.index ⟨(i 0).val / 5000, ht⟩ (0 : Fin 2) = (i 0).val / 5000 := e5
  refine ⟨⟨(i 0).val / 5000, ht⟩, flush0_3 _, ?_⟩
  rw [mem_blk]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    omega
  | ⟨1, _⟩ =>
    show win0_3.index ⟨(i 0).val / 5000, ht⟩ (1 : Fin 2) * 32 ≤ (i 1).val
      ∧ (i 1).val < win0_3.index ⟨(i 0).val / 5000, ht⟩ (1 : Fin 2) * 32 + 32
    omega

/-- After the twenty points the result array of the first call holds the affine layer of the arrays the region found. -/
theorem final (c : Dev nD) :
    (dat0 V c).arrAt 3 cfg0.N = Cert.Spec.dense (V c main_arg0) (V c main_arg1) (V c main_arg2) :=
  (dat0 V c).arrAt_eq_of_cover 3 (Cert.Spec.dense (V c main_arg0) (V c main_arg1) (V c main_arg2))
    (fun t _ => flushed_eq V c t) cover

end Cert.KernelIdeal.Region0

end
-- ==== Proof.Region1.lean ====
import proofs.«170805_j44633300140358_1_alg».proof.Proof.Gen.KernelIdeal.Frame
import proofs.«170805_j44633300140358_1_alg».proof.Proof.Spec
import proofs.«170805_j44633300140358_1_alg».proof.Proof.LibPlainMatmul
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

/-! The second call: twenty points, point t working on rows 5000 t … 5000 t + 4999 of h, clamped below at zero, against the
    whole of w and b. -/

/-- The zero offsets of a rank-2 rectangle, as a constant function. -/
theorem hz : (![0, 0] : Fin 2 → Nat) = fun _ => 0 := funext fun a => by fin_cases a <;> rfl

/-- The zero offset of a rank-1 rectangle, as a constant function. -/
theorem hz1 : (![0] : Fin 1 → Nat) = fun _ => 0 := funext fun a => by fin_cases a; rfl

/-- What one point stores, at entry (p, q): a cast to the same shape changes nothing, the maximum against the splat of the
    zero word is the larger of the entry and zero, the narrowing of both operands is the identity on extended reals, the
    product into the zero matrix is the sum over the contraction coordinate, and the bias, cast to one row and spread down
    the rows, contributes its entry q. -/
theorem pay_apply (x : Vec Ideal S5000x32 .f32) (w : Vec Ideal S32x32 .f32) (b : Vec Ideal S32 .f32)
    (p : Fin 5000) (q : Fin 32) :
    k1_pay1 x w b (ix2 p q) = (∑ k : Fin 32, max (x (ix2 p k)) 0 * w (ix2 k q)) + b (ix1 q) := by
  unfold k1_pay1
  rw [addf_apply]
  refine congrArg₂ (· + ·) ?_ ?_
  · refine (Cert.Lib.PlainMatmul.apply dot_S5000x32_S32x32_S5000x32_1_0_0_1_n_n rfl rfl rfl rfl rfl rfl none _ _ p q).trans ?_
    refine Finset.sum_congr rfl fun k _ => congrArg₂ (· * ·) ?_ ?_
    · show max (shapeCast S5000x32 x shapeCasts_S5000x32_S5000x32 (ix2 p k)) (Ideal.ofBits .f32 0x00000000#32)
        = max (x (ix2 p k)) 0
      rw [shapeCast_self, Ideal.ofBits_zero_f32]
    · show shapeCast S32x32 w shapeCasts_S32x32_S32x32 (ix2 k q) = w (ix2 k q)
      rw [shapeCast_self]
  · refine (Cert.Lib.PlainMatmul.rowSpread_apply _ _ p q).trans ((shapeCast_a_1a_apply _ _ 0 q).trans ?_)
    rw [shapeCast_self]

/-- The block indices at point t: the row block of h and of the result is t, their column block 0; w and b have the one
    block 0 on every axis. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Entry (p, k) of h's block at point t is the array's entry (5000 t + p, k): on each axis a block's entry sits at the
    block index times the block's extent plus its own coordinate. -/
theorem hblk_apply (c : Dev nD) (t : Fin cfg1.N) (p : Fin 5000) (k : Fin 32) (i : S100000x32.Idx)
    (h0 : (i 0).val = t.val * 5000 + p.val) (h1 : (i 1).val = k.val) :
    iblk1 V c 0 t (ix2 p k) = V c main_v13 i := by
  obtain ⟨e0, e1, -⟩ := idx_facts t
  show V c main_v13 (((cfg1.win 0).blk t).view.emb (ix2 p k)) = V c main_v13 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 32 + 1 * k.val = (i 1).val; omega

/-- w's one block is the whole array: its entry (k, q) is the array's entry (k, q). -/
theorem wblk_apply (c : Dev nD) (t : Fin cfg1.N) (k : Fin 32) (q : Fin 32) (i : S32x32.Idx)
    (h0 : (i 0).val = k.val) (h1 : (i 1).val = q.val) :
    iblk1 V c 1 t (ix2 k q) = V c main_v14 i := by
  obtain ⟨-, -, e2, e3, -⟩ := idx_facts t
  show V c main_v14 (((cfg1.win 1).blk t).view.emb (ix2 k q)) = V c main_v14 i
  refine congrArg _ (funext fun a => Fin.ext ?_)
  match a with
  | ⟨0, _⟩ => show win1_1.index t (0 : Fin 2) * 32 + 1 * k.val = (i 0).val; omega
  | ⟨1, _⟩ => show win1_1.index t (1 : Fin 2) * 32 + 1 * q.val = (i 1).val; omega

/-- b's one block is the whole array: its entry q is the array's entry q. -/
theorem bblk_apply (c : Dev nD) (t : Fin cfg1.N) (q : Fin 32) (i : S32.Idx) (h0 : (i 0).val = q.val) :
    iblk1 V c 2 t (ix1 q) = V c main_v15 i := by
  obtain ⟨-, -, -, -, e4, -⟩ := idx_facts t
  show V c main_v15 (((cfg1.win 2).blk t).view.emb (ix1 q)) = V c main_v15 i
  refine congrArg _ (funext fun a => Fin.ext ?_)
  match a with
  | ⟨0, _⟩ => show win1_2.index t (0 : Fin 1) * 32 + 1 * q.val = (i 0).val; omega

/-- What point t writes back is block t of the affine layer of the clamped h: entry (p, q) of the block is row 5000 t + p
    of h, each entry the larger of itself and zero, against column q of w, plus b's entry q, and that is the layer's entry
    (5000 t + p, q). -/
theorem flushed_eq (c : Dev nD) (t : Fin cfg1.N) :
    (dat1 V c).flushed 3 t
      = ((cfg1.win 3).blk t).view.read (Elt Ideal)
          (Cert.Spec.dense (Cert.Spec.relu (V c main_v13)) (V c main_v14) (V c main_v15)) := by
  show (cfg1.win 3).cut (grid1.coords t) ((dat1 V c).after 3 t) = _
  rw [after1_3]
  unfold out1_3
  rw [View.canon_unit_zero hz]
  simp only [View.ld_unit_zero (S := S5000x32) hz, View.ld_unit_zero (S := S32x32) hz, View.ld_unit_zero (S := S32) hz1]
  obtain ⟨-, -, -, -, -, e5, e6⟩ := idx_facts t
  funext j
  obtain ⟨p, q, rfl⟩ : ∃ (p : Fin 5000) (q : Fin 32), j = ix2 p q := ⟨j 0, j 1, eq_ix2 j⟩
  show k1_pay1 (iblk1 V c 0 t) (iblk1 V c 1 t) (iblk1 V c 2 t) (ix2 p q)
    = Cert.Spec.dense (Cert.Spec.relu (V c main_v13)) (V c main_v14) (V c main_v15)
        (((cfg1.win 3).blk t).view.emb (ix2 p q))
  refine (pay_apply _ _ _ p q).trans ?_
  have hr : ((((cfg1.win 3).blk t).view.emb (ix2 p q)) 0).val = t.val * 5000 + p.val := by
    show win1_3.index t (0 : Fin 2) * 5000 + 1 * p.val = _; omega
  have hc : ((((cfg1.win 3).blk t).view.emb (ix2 p q)) 1).val = q.val := by
    show win1_3.index t (1 : Fin 2) * 32 + 1 * q.val = _; omega
  refine congrArg₂ (· + ·) (Finset.sum_congr rfl fun k _ => congrArg₂ (· * ·) ?_ ?_) ?_
  · exact congrArg (fun z => max z 0) (hblk_apply V c t p k _ hr rfl)
  · exact wblk_apply V c t k q _ rfl hc
  · exact bblk_apply V c t q _ hc

/-- An entry of the result array is in point t's block iff each coordinate is in the block's range on its axis. -/
theorem mem_blk (t : Fin cfg1.N) (i : S100000x32.Idx) :
    i ∈ ((cfg1.win 3).blk t).view.set
      ↔ ∀ a : Fin 2, win1_3.index t a * S5000x32.size a ≤ (i a).val
          ∧ (i a).val < win1_3.index t a * S5000x32.size a + S5000x32.size a := by
  show i ∈ ((View.whole main_v16).slice (win1_3.rect t)).set ↔ _
  rw [View.set_slice_whole, Rect.mem_set_unit]
  exact Iff.rfl

/-- The twenty row blocks tile the result: row r lies in the block of point r / 5000, and every point writes back. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have ht : (i 0).val / 5000 < cfg1.N := by show (i 0).val / 5000 < 20; omega
  obtain ⟨-, -, -, -, -, e5, e6⟩ := idx_facts ⟨(i 0).val / 5000, ht⟩
  have e5' : win1_3.index ⟨(i 0).val / 5000, ht⟩ (0 : Fin 2) = (i 0).val / 5000 := e5
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 32 ≤ (i 1).val
      ∧ (i 1).val < win1_3.index ⟨(i 0).val / 5000, ht⟩ (1 : Fin 2) * 32 + 32
    omega

/-- After the twenty points the result array of the second call holds the affine layer of the clamped array the region
    found, against the w and b it found. -/
theorem final (c : Dev nD) :
    (dat1 V c).arrAt 3 cfg1.N = Cert.Spec.dense (Cert.Spec.relu (V c main_v13)) (V c main_v14) (V c main_v15) :=
  (dat1 V c).arrAt_eq_of_cover 3 (Cert.Spec.dense (Cert.Spec.relu (V c main_v13)) (V c main_v14) (V c main_v15))
    (fun t _ => flushed_eq V c t) cover

end Cert.KernelIdeal.Region1

end
-- ==== Proof.Region2.lean ====
/-
  The third pipelined call, read as one equation on whole arrays at the ideal values.

  Its grid has 20 points. At point t every window's block is rows [5000 t, 5000 t + 5000) of its array, all 16 columns:
  the three inputs mu, ls, eps and the output. The body stores, at every place of the output block,
  mu + eps · exp ls of the same place of the three input blocks. A place (a, b) of block t sits at row 5000 t + a,
  column b of its array, the same place for all four windows, so what point t writes back is block t of the array
  mu + eps · exp ls. Row r of the output lies in the block of point r / 5000, so the blocks cover the output, and it
  ends holding that array.
-/
import proofs.«170805_j44633300140358_1_alg».proof.Proof.Gen.KernelIdeal.Frame
import proofs.«170805_j44633300140358_1_alg».proof.Proof.Spec
import Idealize.ShloMosaic.Lib.Pipeline.Value
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The offsets of the one rectangle the body loads and stores through are zero on both axes. -/
theorem hz : (![0, 0] : Fin 2 → Nat) = fun _ => 0 :=
  funext fun a => match a with | ⟨0, _⟩ => rfl | ⟨1, _⟩ => rfl

/-- The stored value as a tree of pointwise operations of the loaded blocks: the two reshapes keep the shape, so they
    are the identity. -/
theorem pay_eq (x0 x2 x3 : Vec Ideal S5000x16 .f32) : k2_pay1 x0 x2 x3 = addf x0 (mulf x2 (exp x3)) := by
  unfold k2_pay1
  rw [shapeCast_self, shapeCast_self]

/-- The index maps, decided over the grid: at point t every window's block index is (t, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of mu + eps · exp ls of the arrays as the call finds them. -/
theorem flushed_eq (c : Dev nD) (t : Fin cfg2.N) :
    (dat2 V c).flushed 3 t
      = ((cfg2.win 3).blk t).view.read (Elt Ideal) (Cert.Spec.reparam (V c main_v31) (V c main_v44) (V c main_arg7)) := by
  show (cfg2.win 3).cut (grid2.coords t) ((dat2 V c).after 3 t) = _
  rw [after2_3]
  unfold out2_3
  rw [View.canon_unit_zero hz]
  simp only [View.ld_unit_zero (S := S5000x16) hz]
  rw [pay_eq]
  obtain ⟨e00, e01, e10, e11, e20, e21, e30, e31⟩ := idx_facts t
  funext j
  -- a place of a block sits at (block index × block size + the place) on each axis, and the four block indices agree
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 16 + 1 * (j 1).val = win2_3.index t (1 : Fin 2) * 16 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 16 + 1 * (j 1).val = win2_3.index t (1 : Fin 2) * 16 + 1 * (j 1).val; omega
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 16 + 1 * (j 1).val = win2_3.index t (1 : Fin 2) * 16 + 1 * (j 1).val; omega
  -- both sides are the same pointwise expression of the three arrays, read at places that agree
  have key : ∀ (mu ls eps : S100000x16.Idx → EReal) (i0 i1 i2 i3 : S100000x16.Idx), i0 = i3 → i1 = i3 → i2 = i3 →
      mu i0 + eps i2 * Ideal.exp (ls i1) = mu i3 + eps i3 * Ideal.exp (ls i3) := by
    intro mu ls eps i0 i1 i2 i3 e0 e1 e2; rw [e0, e1, e2]
  exact key (V c main_v31) (V c main_v44) (V c main_arg7) (((cfg2.win 0).blk t).view.emb j)
    (((cfg2.win 1).blk t).view.emb j) (((cfg2.win 2).blk t).view.emb j) (((cfg2.win 3).blk t).view.emb j) h0 h1 h2

/-- An index of the output array is in point t's block iff each coordinate is in the block's range on its axis. -/
theorem mem_blk (t : Fin cfg2.N) (i : S100000x16.Idx) :
    i ∈ ((cfg2.win 3).blk t).view.set
      ↔ ∀ a : Fin 2, win2_3.index t a * S5000x16.size a ≤ (i a).val
          ∧ (i a).val < win2_3.index t a * S5000x16.size a + S5000x16.size a := by
  show i ∈ ((View.whole main_v45).slice (win2_3.rect t)).set ↔ _
  rw [View.set_slice_whole, Rect.mem_set_unit]
  exact Iff.rfl

/-- Every index of the output array is in the block of the point its row names: row r in that of point r / 5000. -/
theorem cover (i : S100000x16.Idx) :
    ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 20 := N_2
  refine ⟨⟨(i 0).val / 5000, by rw [hN]; omega⟩, flush2_3 _, ?_⟩
  rw [mem_blk]
  obtain ⟨-, -, -, -, -, -, e30, e31⟩ := idx_facts ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000
    omega
  | ⟨1, _⟩ =>
    show win2_3.index _ (1 : Fin 2) * 16 ≤ (i 1).val ∧ (i 1).val < win2_3.index _ (1 : Fin 2) * 16 + 16
    rw [e31]; omega

/-- The output array after the call: mu + eps · exp ls of the three input arrays as the call finds them. -/
theorem final (c : Dev nD) :
    (dat2 V c).arrAt 3 cfg2.N = Cert.Spec.reparam (V c main_v31) (V c main_v44) (V c main_arg7) :=
  (dat2 V c).arrAt_eq_of_cover 3 _ (fun t _ => flushed_eq V c t) cover

end Cert.KernelIdeal.Region2

end
-- ==== Proof.KernelFold.lean ====
/-
  What the kernel program's three result buffers hold after @main, as functions of the argument arrays, at the ideal values.

  @main is: the first dense call; a stretch of host operations (the sparse product with the edge list, and the two
  concatenations [Wmu | Wls], [bmu | bls]); the second dense call (relu first); a second host stretch (the two column slices
  and a sparse product of each); the pointwise third call. The contents of the buffers at each of the five boundaries are a
  fold from the launch memory; here every buffer a later step reads is followed back through that fold:

    s0 = x · W1 + b1                                    (first call's result array)
    h  = A s0                                           (A the sparse product: out[r] = Σ over edges e with row e = r of val e · s[col e])
    s1 = relu h · [Wmu | Wls] + [bmu | bls]             (second call's result array)
    mu = A (columns [0, 16) of s1),  ls = A (columns [16, 32) of s1)
    z  = mu + eps · exp ls                              (third call's result array)

  The sparse product is kept as ONE named function of its four operands: both programs apply the same host operations
  for it, so nothing about a gather or a scatter is ever opened.
-/
import proofs.«170805_j44633300140358_1_alg».proof.Proof.Gen.KernelIdeal.Frame
import proofs.«170805_j44633300140358_1_alg».proof.Proof.Spec
import proofs.«170805_j44633300140358_1_alg».proof.Proof.Region0
import proofs.«170805_j44633300140358_1_alg».proof.Proof.Region1
import proofs.«170805_j44633300140358_1_alg».proof.Proof.Region2
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

/-- The column indices as the host wraps them (a negative index has the row count added), as a one-column matrix. -/
def wrapCol (col : IVec S3200000 32) : IVec S3200000x1 32 :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The sparse product of the edge list with a 32-column matrix: gather the rows `col e`, scale row e by `val e`,
    add each into row `row e` of the zero matrix. -/
def spmm32 (s : FVec Ideal S100000x32 .f32) (val : FVec Ideal S3200000 .f32)
    (row col : IVec S3200000 32) : FVec Ideal S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 row)
    (mulf (broadcastInDim S3200000x32 ![0, 1] bcast_S3200000x1_S3200000x32_0_1 (broadcastInDim S3200000x1 ![0] bcast_S3200000_S3200000x1_0 val))
      (Host.gather gather_S100000x32_S3200000x1_S3200000x32_1_0_n_n_0_1_132 s (wrapCol col)))

/-- The same with a 16-column matrix. -/
def spmm16 (s : FVec Ideal S100000x16 .f32) (val : FVec Ideal S3200000 .f32)
    (row col : IVec S3200000 32) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 row)
    (mulf (broadcastInDim S3200000x16 ![0, 1] bcast_S3200000x1_S3200000x16_0_1 (broadcastInDim S3200000x1 ![0] bcast_S3200000_S3200000x1_0 val))
      (Host.gather gather_S100000x16_S3200000x1_S3200000x16_1_0_n_n_0_1_116 s (wrapCol col)))

/-- The two weight matrices side by side, and the two biases end to end. -/
def wcat (wa wb : FVec Ideal S32x16 .f32) : FVec Ideal S32x32 .f32 :=
  concatenate S32x32 1 [⟨S32x16, wa⟩, ⟨S32x16, wb⟩] concatenates_S32x16_S32x16_S32x32_d1
def bcat (ba bb : FVec Ideal S16 .f32) : FVec Ideal S32 .f32 :=
  concatenate S32 0 [⟨S16, ba⟩, ⟨S16, bb⟩] concatenates_S16_S16_S32_d0
/-- Columns [0, 16) and [16, 32) of a 32-column matrix. -/
def colsLo (s : FVec Ideal S100000x32 .f32) : FVec Ideal S100000x16 .f32 :=
  extractStridedSlice S100000x16 ![0, 0] s slices_S100000x32_S100000x16_0_0
def colsHi (s : FVec Ideal S100000x32 .f32) : FVec Ideal S100000x16 .f32 :=
  extractStridedSlice S100000x16 ![0, 16] s slices_S100000x32_S100000x16_0_16

variable (m : (ℓ : Loc nD τ sig) → Buf (Elt Ideal) ℓ) (ρ : Dev nD → PrngReg)

/-- The first call's result array, the hidden layer before its relu, the second call's result array, and the three results. -/
def s0 (c : Dev nD) : FVec Ideal S100000x32 .f32 :=
  Cert.Spec.dense (m ((c : Thread nD τ).loc main_arg0)) (m ((c : Thread nD τ).loc main_arg1)) (m ((c : Thread nD τ).loc main_arg2))
def hid (c : Dev nD) : FVec Ideal S100000x32 .f32 :=
  spmm32 (s0 m c) (m ((c : Thread nD τ).loc main_arg8)) (m ((c : Thread nD τ).loc main_arg9)) (m ((c : Thread nD τ).loc main_arg10))
def s1 (c : Dev nD) : FVec Ideal S100000x32 .f32 :=
  Cert.Spec.dense (Cert.Spec.relu (hid m c)) (wcat (m ((c : Thread nD τ).loc main_arg3)) (m ((c : Thread nD τ).loc main_arg5)))
    (bcat (m ((c : Thread nD τ).loc main_arg4)) (m ((c : Thread nD τ).loc main_arg6)))
def mu (c : Dev nD) : FVec Ideal S100000x16 .f32 :=
  spmm16 (colsLo (s1 m c)) (m ((c : Thread nD τ).loc main_arg8)) (m ((c : Thread nD τ).loc main_arg9)) (m ((c : Thread nD τ).loc main_arg10))
def ls (c : Dev nD) : FVec Ideal S100000x16 .f32 :=
  spmm16 (colsHi (s1 m c)) (m ((c : Thread nD τ).loc main_arg8)) (m ((c : Thread nD τ).loc main_arg9)) (m ((c : Thread nD τ).loc main_arg10))
def z (c : Dev nD) : FVec Ideal S100000x16 .f32 :=
  Cert.Spec.reparam (mu m c) (ls m c) (m ((c : Thread nD τ).loc main_arg7))

/-- A buffer no operation of a host stretch writes is unchanged across the stretch. -/
local macro "untouched_by" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, Finset.mem_singleton]
      repeat' apply And.intro
      all_goals exact StableHlo.devRef_ne_of_ne (by decide))))

/-! ## After the first call -/

theorem W1_v0 (c : Dev nD) : W1 m ρ c (Proc.devRef .tc main_v0) = s0 m c :=
  (W1_arr m ρ c 3).trans (Cert.KernelIdeal.Region0.final (V0 m ρ) c)

theorem W1_arg3 (c : Dev nD) : W1 m ρ c (Proc.devRef .tc main_arg3) = m ((c : Thread nD τ).loc main_arg3) := W1_of_ne m ρ c main_arg3 (by decide)
theorem W1_arg4 (c : Dev nD) : W1 m ρ c (Proc.devRef .tc main_arg4) = m ((c : Thread nD τ).loc main_arg4) := W1_of_ne m ρ c main_arg4 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)
theorem W1_arg8 (c : Dev nD) : W1 m ρ c (Proc.devRef .tc main_arg8) = m ((c : Thread nD τ).loc main_arg8) := W1_of_ne m ρ c main_arg8 (by decide)
theorem W1_arg9 (c : Dev nD) : W1 m ρ c (Proc.devRef .tc main_arg9) = m ((c : Thread nD τ).loc main_arg9) := W1_of_ne m ρ c main_arg9 (by decide)
theorem W1_arg10 (c : Dev nD) : W1 m ρ c (Proc.devRef .tc main_arg10) = m ((c : Thread nD τ).loc main_arg10) := W1_of_ne m ρ c main_arg10 (by decide)

/-! ## After the first host stretch -/

theorem W2_v13 (c : Dev nD) : W2 m ρ c (Proc.devRef .tc main_v13) = hid m c := by
  show StableHlo.after hostOps1 (W1 m ρ c) (Proc.devRef .tc main_v13) = _
  after_results
  rw [W1_v0, W1_arg8, W1_arg9, W1_arg10]
  rfl
theorem W2_v14 (c : Dev nD) : W2 m ρ c (Proc.devRef .tc main_v14)
    = wcat (m ((c : Thread nD τ).loc main_arg3)) (m ((c : Thread nD τ).loc main_arg5)) := by
  show StableHlo.after hostOps1 (W1 m ρ c) (Proc.devRef .tc main_v14) = _
  after_results
  rw [W1_arg3, W1_arg5]
  rfl
theorem W2_v15 (c : Dev nD) : W2 m ρ c (Proc.devRef .tc main_v15)
    = bcat (m ((c : Thread nD τ).loc main_arg4)) (m ((c : Thread nD τ).loc main_arg6)) := by
  show StableHlo.after hostOps1 (W1 m ρ c) (Proc.devRef .tc main_v15) = _
  after_results
  rw [W1_arg4, W1_arg6]
  rfl
theorem W2_arg7 (c : Dev nD) : W2 m ρ c (Proc.devRef .tc main_arg7) = m ((c : Thread nD τ).loc main_arg7) :=
  (show StableHlo.after hostOps1 (W1 m ρ c) (Proc.devRef .tc main_arg7) = W1 m ρ c (Proc.devRef .tc main_arg7) by untouched_by hostOps1).trans (W1_arg7 m ρ c)
theorem W2_arg8 (c : Dev nD) : W2 m ρ c (Proc.devRef .tc main_arg8) = m ((c : Thread nD τ).loc main_arg8) :=
  (show StableHlo.after hostOps1 (W1 m ρ c) (Proc.devRef .tc main_arg8) = W1 m ρ c (Proc.devRef .tc main_arg8) by untouched_by hostOps1).trans (W1_arg8 m ρ c)
theorem W2_arg9 (c : Dev nD) : W2 m ρ c (Proc.devRef .tc main_arg9) = m ((c : Thread nD τ).loc main_arg9) :=
  (show StableHlo.after hostOps1 (W1 m ρ c) (Proc.devRef .tc main_arg9) = W1 m ρ c (Proc.devRef .tc main_arg9) by untouched_by hostOps1).trans (W1_arg9 m ρ c)
theorem W2_arg10 (c : Dev nD) : W2 m ρ c (Proc.devRef .tc main_arg10) = m ((c : Thread nD τ).loc main_arg10) :=
  (show StableHlo.after hostOps1 (W1 m ρ c) (Proc.devRef .tc main_arg10) = W1 m ρ c (Proc.devRef .tc main_arg10) by untouched_by hostOps1).trans (W1_arg10 m ρ c)

/-! ## After the second call -/

theorem W3_v16 (c : Dev nD) : W3 m ρ c (Proc.devRef .tc main_v16) = s1 m c := by
  refine (W3_arr m ρ c 3).trans ((Cert.KernelIdeal.Region1.final (V2 m ρ) c).trans ?_)
  show Cert.Spec.dense (Cert.Spec.relu (W2 m ρ c (Proc.devRef .tc main_v13))) (W2 m ρ c (Proc.devRef .tc main_v14)) (W2 m ρ c (Proc.devRef .tc main_v15)) = _
  rw [W2_v13, W2_v14, W2_v15]
  rfl
theorem W3_arg7 (c : Dev nD) : W3 m ρ c (Proc.devRef .tc main_arg7) = m ((c : Thread nD τ).loc main_arg7) :=
  (W3_of_ne m ρ c main_arg7 (by decide)).trans (W2_arg7 m ρ c)
theorem W3_arg8 (c : Dev nD) : W3 m ρ c (Proc.devRef .tc main_arg8) = m ((c : Thread nD τ).loc main_arg8) :=
  (W3_of_ne m ρ c main_arg8 (by decide)).trans (W2_arg8 m ρ c)
theorem W3_arg9 (c : Dev nD) : W3 m ρ c (Proc.devRef .tc main_arg9) = m ((c : Thread nD τ).loc main_arg9) :=
  (W3_of_ne m ρ c main_arg9 (by decide)).trans (W2_arg9 m ρ c)
theorem W3_arg10 (c : Dev nD) : W3 m ρ c (Proc.devRef .tc main_arg10) = m ((c : Thread nD τ).loc main_arg10) :=
  (W3_of_ne m ρ c main_arg10 (by decide)).trans (W2_arg10 m ρ c)

/-! ## After the second host stretch -/

set_option maxHeartbeats 4000000 in
theorem W4_v31 (c : Dev nD) : W4 m ρ c (Proc.devRef .tc main_v31) = mu m c := by
  show StableHlo.after hostOps2 (W3 m ρ c) (Proc.devRef .tc main_v31) = _
  after_results_simp
  rw [W3_v16, W3_arg8, W3_arg9, W3_arg10]
  rfl
set_option maxHeartbeats 4000000 in
theorem W4_v44 (c : Dev nD) : W4 m ρ c (Proc.devRef .tc main_v44) = ls m c := by
  show StableHlo.after hostOps2 (W3 m ρ c) (Proc.devRef .tc main_v44) = _
  after_results_simp
  rw [W3_v16, W3_arg8, W3_arg9, W3_arg10]
  rfl
theorem W4_arg7 (c : Dev nD) : W4 m ρ c (Proc.devRef .tc main_arg7) = m ((c : Thread nD τ).loc main_arg7) :=
  (show StableHlo.after hostOps2 (W3 m ρ c) (Proc.devRef .tc main_arg7) = W3 m ρ c (Proc.devRef .tc main_arg7) by untouched_by hostOps2).trans (W3_arg7 m ρ c)

/-! ## After the third call: the three results -/

theorem W5_v45 (c : Dev nD) : W5 m ρ c (Proc.devRef .tc main_v45) = z m c := by
  refine (W5_arr m ρ c 3).trans ((Cert.KernelIdeal.Region2.final (V4 m ρ) c).trans ?_)
  show Cert.Spec.reparam (W4 m ρ c (Proc.devRef .tc main_v31)) (W4 m ρ c (Proc.devRef .tc main_v44)) (W4 m ρ c (Proc.devRef .tc main_arg7)) = _
  rw [W4_v31, W4_v44, W4_arg7]
  rfl
/-- The third call only reads mu and ls: its input windows' arrays end as the region found them. -/
theorem W5_v31 (c : Dev nD) : W5 m ρ c (Proc.devRef .tc main_v31) = mu m c :=
  ((W5_arr m ρ c 0).trans (((dat2 (V4 m ρ) c).arrAt_in 0 rfl _).trans (A_eq2 (V4 m ρ) c 0))).trans (W4_v31 m ρ c)
theorem W5_v44 (c : Dev nD) : W5 m ρ c (Proc.devRef .tc main_v44) = ls m c :=
  ((W5_arr m ρ c 1).trans (((dat2 (V4 m ρ) c).arrAt_in 1 rfl _).trans (A_eq2 (V4 m ρ) c 1))).trans (W4_v44 m ρ c)

end Cert.KernelIdeal.Fold

end
-- ==== Proof.RefSide.lean ====
/-
  What the reference program's three result buffers hold after @main, as functions of the argument arrays, at the ideal
  values, in named pieces:

    hid = A (x · W1 + b1)                       (A the sparse product with the edge list)
    mu  = A (relu hid · Wmu + bmu),   ls = A (relu hid · Wls + bls)
    z   = mu + eps · exp ls

  The reference's run gives each result as one long composed term of the arguments; the named pieces unfold to exactly
  those terms, so the restated run is the run itself. The sparse product is ONE named function of its four operands,
  spelt with the same host operations as the kernel program's.
-/
import proofs.«170805_j44633300140358_1_alg».proof.Proof.Gen.ReferenceIdeal.Run
import Idealize.ShloMosaic.PureOps.Ideal

set_option maxRecDepth 16384

noncomputable section

namespace Cert.ReferenceIdeal.RefTerm

open Cert.ReferenceIdeal Cert.ReferenceIdeal.Gen Idealize.ShloMosaic Idealize.ShloMosaic.TcCoe Idealize.SL.Sem

/-- The column indices as the host wraps them (a negative index has the row count added), as a one-column matrix. -/
def wrapCol (col : IVec S3200000 32) : IVec S3200000x1 32 :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- The sparse product of the edge list with a 32-column matrix: gather the rows `col e`, scale row e by `val e`,
    add each into row `row e` of the zero matrix. -/
def spmm32 (s : FVec Ideal S100000x32 .f32) (val : FVec Ideal S3200000 .f32)
    (row col : IVec S3200000 32) : FVec Ideal S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 row)
    (mulf (broadcastInDim S3200000x32 ![0, 1] bcast_S3200000x1_S3200000x32_0_1 (broadcastInDim S3200000x1 ![0] bcast_S3200000_S3200000x1_0 val))
      (Host.gather gather_S100000x32_S3200000x1_S3200000x32_1_0_n_n_0_1_132 s (wrapCol col)))

/-- The same with a 16-column matrix. -/
def spmm16 (s : FVec Ideal S100000x16 .f32) (val : FVec Ideal S3200000 .f32)
    (row col : IVec S3200000 32) : FVec Ideal S100000x16 .f32 :=
  Host.scatterAdd scatter_S100000x16_S3200000x1_S3200000x16_1_0_0_1
    (broadcastInDim S100000x16 ![] bcast_S_S100000x16 (constant S_ .f32 0x00000000#32))
    (broadcastInDim S3200000x1 ![0] bcast_S3200000_S3200000x1_0 row)
    (mulf (broadcastInDim S3200000x16 ![0, 1] bcast_S3200000x1_S3200000x16_0_1 (broadcastInDim S3200000x1 ![0] bcast_S3200000_S3200000x1_0 val))
      (Host.gather gather_S100000x16_S3200000x1_S3200000x16_1_0_n_n_0_1_116 s (wrapCol col)))

/-- x · w + b on the host: the product, and the bias made a one-row matrix and spread down the rows. -/
def hostDense32 (x : FVec Ideal S100000x512 .f32) (w : FVec Ideal S512x32 .f32)
    (b : FVec Ideal S32 .f32) : FVec Ideal S100000x32 .f32 :=
  addf (Host.dotGeneral dot_S100000x512_S512x32_S100000x32_1_0_0_1_n_n none x w)
    (broadcastInDim S100000x32 ![0, 1] bcast_S1x32_S100000x32_0_1 (broadcastInDim S1x32 ![1] bcast_S32_S1x32_1 b))
def hostDense16 (h : FVec Ideal S100000x32 .f32) (w : FVec Ideal S32x16 .f32)
    (b : FVec Ideal S16 .f32) : FVec Ideal S100000x16 .f32 :=
  addf (Host.dotGeneral dot_S100000x32_S32x16_S100000x16_1_0_0_1_n_n none h w)
    (broadcastInDim S100000x16 ![0, 1] bcast_S1x16_S100000x16_0_1 (broadcastInDim S1x16 ![1] bcast_S16_S1x16_1 b))
/-- relu on the host: the larger of each entry and the zero splat. -/
def hostRelu (h : FVec Ideal S100000x32 .f32) : FVec Ideal S100000x32 .f32 :=
  maximumf h (broadcastInDim S100000x32 ![] bcast_S_S100000x32 (constant S_ .f32 0x00000000#32))

variable (m : (ℓ : Loc nD τ sig) → Buf (Elt Ideal) ℓ) (ρ : Dev nD → PrngReg)

def hid (c : Dev nD) : FVec Ideal S100000x32 .f32 :=
  spmm32 (hostDense32 (m ((c.tc : Thread nD τ).loc main_arg0)) (m ((c.tc : Thread nD τ).loc main_arg1)) (m ((c.tc : Thread nD τ).loc main_arg2)))
    (m ((c.tc : Thread nD τ).loc main_arg8)) (m ((c.tc : Thread nD τ).loc main_arg9)) (m ((c.tc : Thread nD τ).loc main_arg10))
def mu (c : Dev nD) : FVec Ideal S100000x16 .f32 :=
  spmm16 (hostDense16 (hostRelu (hid m c)) (m ((c.tc : Thread nD τ).loc main_arg3)) (m ((c.tc : Thread nD τ).loc main_arg4)))
    (m ((c.tc : Thread nD τ).loc main_arg8)) (m ((c.tc : Thread nD τ).loc main_arg9)) (m ((c.tc : Thread nD τ).loc main_arg10))
def ls (c : Dev nD) : FVec Ideal S100000x16 .f32 :=
  spmm16 (hostDense16 (hostRelu (hid m c)) (m ((c.tc : Thread nD τ).loc main_arg5)) (m ((c.tc : Thread nD τ).loc main_arg6)))
    (m ((c.tc : Thread nD τ).loc main_arg8)) (m ((c.tc : Thread nD τ).loc main_arg9)) (m ((c.tc : Thread nD τ).loc main_arg10))
def z (c : Dev nD) : FVec Ideal S100000x16 .f32 :=
  addf (mu m c) (mulf (m ((c.tc : Thread nD τ).loc main_arg7)) (Host.exp (ls m c)))

/-- The composed terms of the reference's run are the named pieces, unfolded. -/
theorem res_z (c : Dev nD) : Cert.ReferenceIdeal.Value.res_main_v54 (F := Ideal) m c = z m c := rfl

/-- The reference's run over the named pieces: every weakly fair execution terminates with the three results at z, mu, ls
    of the arguments, the arguments unchanged. -/
theorem run : θ_run defs (onTc (τ := τ) (main (F := Ideal))) ⟨m, fun _ => 0, ρ⟩ fun r => ∀ c : Dev nD,
      r.2.mem ((c.tc : Thread nD τ).loc main_v54) = z m c
      ∧ r.2.mem ((c.tc : Thread nD τ).loc main_v34) = mu m c
      ∧ r.2.mem ((c.tc : Thread nD τ).loc main_v51) = ls m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (res_z m c), (h c).2.1, (h c).2.2.1, (h c).2.2.2⟩)
    (Cert.ReferenceIdeal.Value.run (F := Ideal) m ρ)

end Cert.ReferenceIdeal.RefTerm

end
-- ==== Proof.HostDense.lean ====
/-
  The reference program's dense pieces as whole-array equations at the ideal values (every float an extended real, every
  operation exact), generic in the sizes.

  * The host's product of an [M, K] and a [K, N] matrix, plus the length-N bias first made a one-row matrix and then
    spread down the M rows, is the affine layer: entry (p, q) of the product is the sum over the contraction coordinate,
    and entry (p, q) of the spread bias is the bias entry q.
  * The larger of each entry and the zero splat is relu; mu + eps · exp ls is reparam.
  * The layer with the weights [wa | wb] laid side by side and the bias [ba | bb] laid end to end computes both layers at
    once: its columns [0, 16) are the layer with wa, ba and its columns [16, 32) the layer with wb, bb.
-/
import Idealize.ShloMosaic.PureOps.Ideal.Laws
import Idealize.ShloMosaic.Lib.ValueIdx
import Idealize.ShloMosaic.Lib.Pipeline.Value
import Idealize.ShloMosaic.Lib.ValueLayout
import proofs.«170805_j44633300140358_1_alg».proof.Proof.Spec
import proofs.«170805_j44633300140358_1_alg».proof.Proof.LibPlainMatmul

noncomputable section

open scoped BigOperators
open Idealize.ShloMosaic Idealize.ShloMosaic.ValueIdx

namespace Cert.HostDense

/-- A coordinate below N that is read as 0 when N = 1: the two agree, since the only coordinate below 1 is 0. -/
theorem unit_or_self {N : Nat} (q : Fin N) : q.val = if N = 1 then 0 else q.val := by
  split
  · have := q.isLt; omega
  · rfl

/-- A length-N vector made a one-row matrix and spread down M rows, at entry (p, q): the vector's entry q. -/
theorem biasSpread_apply {α : Type} {M N : Nat} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  refine (broadcastInDim_apply ![0, 1] h2 _ (ix2 p q) (ix2 (0 : Fin 1) q) fun a => ?_).trans ?_
  · match a with
    | ⟨0, _⟩ => rfl
    | ⟨1, _⟩ => exact unit_or_self q
  · refine broadcastInDim_apply ![1] h1 b (ix2 (0 : Fin 1) q) (ix1 q) fun a => ?_
    match a with
    | ⟨0, _⟩ => exact unit_or_self q

/-- The host's product of an [M, K] and a [K, N] matrix plus the bias spread over the rows is the affine layer. -/
theorem hostDense_eq {M K N : Nat} (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec x w) (broadcastInDim ⟨2, ![M, N]⟩ ![0, 1] h2 (broadcastInDim ⟨2, ![1, N]⟩ ![1] h1 b))
      = Cert.Spec.dense x w b := by
  funext i
  obtain ⟨p, q, rfl⟩ : ∃ p q, i = ix2 p q := ⟨i 0, i 1, eq_ix2 i⟩
  rw [addf_apply, Cert.Spec.dense_apply, biasSpread_apply b h1 h2 p q]
  refine congrArg (· + b (ix1 q)) ?_
  -- the host's product and the product accumulated into the zero matrix are the same sum over the contraction index
  exact (Ideal.dotGeneral_apply d prec .single x w (ix2 p q)).trans
    ((Ideal.matmul_constant_zero_apply d prec x w (ix2 p q)).symm.trans
      (Cert.Lib.PlainMatmul.apply d hlc hrc hln hrn hlb hrb prec x w p q))

/-- The larger of each entry and the zero splat is relu. -/
theorem hostRelu_eq {s : Shape} (h : FVec Ideal s .f32) (hb : (⟨0, ![]⟩ : Shape).BroadcastsInDim s ![]) :
    maximumf h (broadcastInDim s ![] hb (constant (F := Ideal) ⟨0, ![]⟩ .f32 0x00000000#32)) = Cert.Spec.relu h := by
  funext i
  rw [maximumf_apply]
  show max (h i) (Ideal.ofBits .f32 0x00000000#32) = max (h i) 0
  rw [Ideal.ofBits_zero_f32]

/-- The host's mu + eps · exp ls is reparam. -/
theorem hostReparam_eq {s : Shape} (mu ls eps : FVec Ideal s .f32) :
    addf mu (mulf eps (Host.exp ls)) = Cert.Spec.reparam mu ls eps := rfl

section Slices
variable {M : Nat} (h : FVec Ideal ⟨2, ![M, 32]⟩ .f32) (wa wb : FVec Ideal ⟨2, ![32, 16]⟩ .f32)
  (ba bb : FVec Ideal ⟨1, ![16]⟩ .f32)
  (hcw : Shape.Concatenates [(⟨2, ![32, 16]⟩ : Shape), ⟨2, ![32, 16]⟩] ⟨2, ![32, 32]⟩ 1)
  (hcb : Shape.Concatenates [(⟨1, ![16]⟩ : Shape), ⟨1, ![16]⟩] ⟨1, ![32]⟩ 0)

/-- Column q < 16 of [wa | wb] is column q of wa. -/
theorem catW_left (k : Fin 32) (q : Fin 16) (q' : Fin 32) (hq : q'.val = q.val) :
    concatenate ⟨2, ![32, 32]⟩ 1 [⟨⟨2, ![32, 16]⟩, wa⟩, ⟨⟨2, ![32, 16]⟩, wb⟩] hcw (ix2 k q') = wa (ix2 k q) := by
  refine concatenate_pair_apply_left 1 wa wb hcw (ix2 k q') rfl (ix2 k q) fun b => ?_
  match b with
  | ⟨0, _⟩ => rfl
  | ⟨1, _⟩ => exact hq.symm

/-- Column 16 + q of [wa | wb] is column q of wb. -/
theorem catW_right (k : Fin 32) (q : Fin 16) (q' : Fin 32) (hq : q'.val = 16 + q.val) :
    concatenate ⟨2, ![32, 32]⟩ 1 [⟨⟨2, ![32, 16]⟩, wa⟩, ⟨⟨2, ![32, 16]⟩, wb⟩] hcw (ix2 k q') = wb (ix2 k q) := by
  refine concatenate_pair_apply_right 1 wa wb hcw (ix2 k q') rfl rfl (ix2 k q) (fun b hb => ?_) ?_
  · match b with
    | ⟨0, _⟩ => rfl
    | ⟨1, _⟩ => exact absurd rfl hb
  · show q.val + 16 = q'.val
    omega

/-- Entry q < 16 of [ba | bb] is entry q of ba. -/
theorem catB_left (q : Fin 16) (q' : Fin 32) (hq : q'.val = q.val) :
    concatenate ⟨1, ![32]⟩ 0 [⟨⟨1, ![16]⟩, ba⟩, ⟨⟨1, ![16]⟩, bb⟩] hcb (ix1 q') = ba (ix1 q) := by
  refine concatenate_pair_apply_left 0 ba bb hcb (ix1 q') rfl (ix1 q) fun b => ?_
  match b with
  | ⟨0, _⟩ => exact hq.symm

/-- Entry 16 + q of [ba | bb] is entry q of bb. -/
theorem catB_right (q : Fin 16) (q' : Fin 32) (hq : q'.val = 16 + q.val) :
    concatenate ⟨1, ![32]⟩ 0 [⟨⟨1, ![16]⟩, ba⟩, ⟨⟨1, ![16]⟩, bb⟩] hcb (ix1 q') = bb (ix1 q) := by
  refine concatenate_pair_apply_right 0 ba bb hcb (ix1 q') rfl rfl (ix1 q) (fun b hb => ?_) ?_
  · match b with
    | ⟨0, _⟩ => exact absurd rfl hb
  · show q.val + 16 = q'.val
    omega

/-- Columns [0, 16) of the layer with the concatenated weights [wa | wb] and bias [ba | bb] are the layer with wa, ba:
    entry (p, q) reads column q of the concatenation, which is column q of its left part, in every term of the sum and
    in the bias. -/
theorem slice_dense_left (hs : (⟨2, ![M, 32]⟩ : Shape).Slices ![0, 0] ⟨2, ![M, 16]⟩) :
    extractStridedSlice ⟨2, ![M, 16]⟩ ![0, 0]
        (Cert.Spec.dense h (concatenate ⟨2, ![32, 32]⟩ 1 [⟨⟨2, ![32, 16]⟩, wa⟩, ⟨⟨2, ![32, 16]⟩, wb⟩] hcw)
          (concatenate ⟨1, ![32]⟩ 0 [⟨⟨1, ![16]⟩, ba⟩, ⟨⟨1, ![16]⟩, bb⟩] hcb)) hs
      = Cert.Spec.dense h wa ba := by
  funext i
  obtain ⟨p, q, rfl⟩ : ∃ p q, i = ix2 p q := ⟨i 0, i 1, eq_ix2 i⟩
  have hq' : q.val < 32 := by have := q.isLt; omega
  refine (extractStridedSlice_apply ![0, 0] _ hs (ix2 p q) (ix2 p (⟨q.val, hq'⟩ : Fin 32)) fun a => ?_).trans ?_
  · match a with
    | ⟨0, _⟩ => exact (Nat.zero_add _).symm
    | ⟨1, _⟩ => exact (Nat.zero_add _).symm
  · rw [Cert.Spec.dense_apply, Cert.Spec.dense_apply, catB_left ba bb hcb q ⟨q.val, hq'⟩ rfl]
    refine congrArg (· + ba (ix1 q)) (Finset.sum_congr rfl fun k _ => ?_)
    rw [catW_left wa wb hcw k q ⟨q.val, hq'⟩ rfl]

/-- Columns [16, 32) of the same layer are the layer with wb, bb: entry (p, q) reads column 16 + q of the
    concatenation, which is column q of its right part. -/
theorem slice_dense_right (hs : (⟨2, ![M, 32]⟩ : Shape).Slices ![0, 16] ⟨2, ![M, 16]⟩) :
    extractStridedSlice ⟨2, ![M, 16]⟩ ![0, 16]
        (Cert.Spec.dense h (concatenate ⟨2, ![32, 32]⟩ 1 [⟨⟨2, ![32, 16]⟩, wa⟩, ⟨⟨2, ![32, 16]⟩, wb⟩] hcw)
          (concatenate ⟨1, ![32]⟩ 0 [⟨⟨1, ![16]⟩, ba⟩, ⟨⟨1, ![16]⟩, bb⟩] hcb)) hs
      = Cert.Spec.dense h wb bb := by
  funext i
  obtain ⟨p, q, rfl⟩ : ∃ p q, i = ix2 p q := ⟨i 0, i 1, eq_ix2 i⟩
  have hq' : 16 + q.val < 32 := by have := q.isLt; omega
  refine (extractStridedSlice_apply ![0, 16] _ hs (ix2 p q) (ix2 p (⟨16 + q.val, hq'⟩ : Fin 32)) fun a => ?_).trans ?_
  · match a with
    | ⟨0, _⟩ => exact (Nat.zero_add _).symm
    | ⟨1, _⟩ => rfl
  · rw [Cert.Spec.dense_apply, Cert.Spec.dense_apply, catB_right ba bb hcb q ⟨16 + q.val, hq'⟩ rfl]
    refine congrArg (· + bb (ix1 q)) (Finset.sum_congr rfl fun k _ => ?_)
    rw [catW_right wa wb hcw k q ⟨16 + q.val, hq'⟩ rfl]

end Slices

end Cert.HostDense

end
-- ==== Proof.Bridge.lean ====
/-
  The two programs' results are the same functions of the arguments.

  Piece by piece, at the ideal values:
  * the host's x · w + b (a product, and the bias made a one-row matrix and spread down the rows) is the affine layer
    `dense`, which is also what each dense call of the kernel program leaves in its result array;
  * the host's relu is `relu`;
  * columns [0, 16) of the layer with the weights [Wmu | Wls] and the bias [bmu | bls] are the layer with Wmu, bmu, and
    columns [16, 32) the layer with Wls, bls: every term of an entry's sum reads one column of the concatenation, which is
    a column of one part;
  * the sparse product is the same host operations in both programs, applied to equal operands;
  * the last line mu + eps · exp ls is the same pointwise expression.
  No law beyond these re-readings is used: neither side regroups a sum against the other, so nothing needs the inputs finite.
-/
import proofs.«170805_j44633300140358_1_alg».proof.Proof.KernelFold
import proofs.«170805_j44633300140358_1_alg».proof.Proof.RefSide
import proofs.«170805_j44633300140358_1_alg».proof.Proof.HostDense

set_option maxRecDepth 16384

noncomputable section

namespace Cert.Bridge

open Idealize.ShloMosaic Idealize.ShloMosaic.TcCoe Idealize.SL.Sem
open Cert.ReferenceIdeal.RefTerm (hostDense32 hostDense16 hostRelu)

/-! ## The pieces, as functions of arrays -/

theorem hostDense32_eq (x : FVec Ideal Cert.ReferenceIdeal.S100000x512 .f32) (w : FVec Ideal Cert.ReferenceIdeal.S512x32 .f32)
    (b : FVec Ideal Cert.ReferenceIdeal.S32 .f32) : hostDense32 x w b = Cert.Spec.dense x w b :=
  Cert.HostDense.hostDense_eq Cert.ReferenceIdeal.dot_S100000x512_S512x32_S100000x32_1_0_0_1_n_n rfl rfl rfl rfl rfl rfl none x w b _ _

theorem hostDense16_eq (h : FVec Ideal Cert.ReferenceIdeal.S100000x32 .f32) (w : FVec Ideal Cert.ReferenceIdeal.S32x16 .f32)
    (b : FVec Ideal Cert.ReferenceIdeal.S16 .f32) : hostDense16 h w b = Cert.Spec.dense h w b :=
  Cert.HostDense.hostDense_eq Cert.ReferenceIdeal.dot_S100000x32_S32x16_S100000x16_1_0_0_1_n_n rfl rfl rfl rfl rfl rfl none h w b _ _

theorem hostRelu_eq (h : FVec Ideal Cert.ReferenceIdeal.S100000x32 .f32) : hostRelu h = Cert.Spec.relu h :=
  Cert.HostDense.hostRelu_eq h _

theorem colsLo_dense (h : FVec Ideal Cert.KernelIdeal.S100000x32 .f32) (wa wb : FVec Ideal Cert.KernelIdeal.S32x16 .f32)
    (ba bb : FVec Ideal Cert.KernelIdeal.S16 .f32) :
    Cert.KernelIdeal.Fold.colsLo (Cert.Spec.dense h (Cert.KernelIdeal.Fold.wcat wa wb) (Cert.KernelIdeal.Fold.bcat ba bb)) = Cert.Spec.dense h wa ba :=
  Cert.HostDense.slice_dense_left h wa wb ba bb _ _ _

theorem colsHi_dense (h : FVec Ideal Cert.KernelIdeal.S100000x32 .f32) (wa wb : FVec Ideal Cert.KernelIdeal.S32x16 .f32)
    (ba bb : FVec Ideal Cert.KernelIdeal.S16 .f32) :
    Cert.KernelIdeal.Fold.colsHi (Cert.Spec.dense h (Cert.KernelIdeal.Fold.wcat wa wb) (Cert.KernelIdeal.Fold.bcat ba bb)) = Cert.Spec.dense h wb bb :=
  Cert.HostDense.slice_dense_right h wa wb ba bb _ _ _

/-- The sparse product is spelt with the same host operations in both programs. -/
theorem spmm32_eq (s : FVec Ideal Cert.ReferenceIdeal.S100000x32 .f32) (val : FVec Ideal Cert.ReferenceIdeal.S3200000 .f32)
    (row col : IVec Cert.ReferenceIdeal.S3200000 32) :
    Cert.ReferenceIdeal.RefTerm.spmm32 s val row col = Cert.KernelIdeal.Fold.spmm32 s val row col := rfl
theorem spmm16_eq (s : FVec Ideal Cert.ReferenceIdeal.S100000x16 .f32) (val : FVec Ideal Cert.ReferenceIdeal.S3200000 .f32)
    (row col : IVec Cert.ReferenceIdeal.S3200000 32) :
    Cert.ReferenceIdeal.RefTerm.spmm16 s val row col = Cert.KernelIdeal.Fold.spmm16 s val row col := rfl

/-! ## The results, from memories that agree on the arguments -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))

include hagree

theorem hid_eq (c : Dev Cert.KernelIdeal.nD) : Cert.ReferenceIdeal.RefTerm.hid m' c = Cert.KernelIdeal.Fold.hid m c := by
  obtain ⟨e0, e1, e2, e3, e4, e5, e6, e7, e8, e9, e10⟩ := hagree c
  unfold Cert.ReferenceIdeal.RefTerm.hid Cert.KernelIdeal.Fold.hid Cert.KernelIdeal.Fold.s0
  rw [e0, e1, e2, e8, e9, e10, hostDense32_eq, spmm32_eq]

theorem mu_eq (c : Dev Cert.KernelIdeal.nD) : Cert.ReferenceIdeal.RefTerm.mu m' c = Cert.KernelIdeal.Fold.mu m c := by
  obtain ⟨e0, e1, e2, e3, e4, e5, e6, e7, e8, e9, e10⟩ := hagree c
  unfold Cert.ReferenceIdeal.RefTerm.mu Cert.KernelIdeal.Fold.mu Cert.KernelIdeal.Fold.s1
  rw [hid_eq m m' hagree c, e3, e4, e8, e9, e10, hostRelu_eq, hostDense16_eq, spmm16_eq, colsLo_dense]

theorem ls_eq (c : Dev Cert.KernelIdeal.nD) : Cert.ReferenceIdeal.RefTerm.ls m' c = Cert.KernelIdeal.Fold.ls m c := by
  obtain ⟨e0, e1, e2, e3, e4, e5, e6, e7, e8, e9, e10⟩ := hagree c
  unfold Cert.ReferenceIdeal.RefTerm.ls Cert.KernelIdeal.Fold.ls Cert.KernelIdeal.Fold.s1
  rw [hid_eq m m' hagree c, e5, e6, e8, e9, e10, hostRelu_eq, hostDense16_eq, spmm16_eq, colsHi_dense]

theorem z_eq (c : Dev Cert.KernelIdeal.nD) : Cert.ReferenceIdeal.RefTerm.z m' c = Cert.KernelIdeal.Fold.z m c := by
  obtain ⟨e0, e1, e2, e3, e4, e5, e6, e7, e8, e9, e10⟩ := hagree c
  unfold Cert.ReferenceIdeal.RefTerm.z Cert.KernelIdeal.Fold.z
  rw [mu_eq m m' hagree c, ls_eq m m' hagree c, e7]
  exact Cert.HostDense.hostReparam_eq _ _ _

end Cert.Bridge

end
-- ==== Proof.lean ====
/-
  A two-layer graph-convolution encoder with a reparameterised output, over N = 100000 nodes and E = 3200000 edges:

      hid = A (x · W1 + b1),   mu = A (relu hid · Wmu + bmu),   ls = A (relu hid · Wls + bls),   z = mu + eps · exp ls,

  where A is the sparse product with the edge list, out[r] = Σ over edges e with row e = r of val e · s[col e].
  The reference computes exactly this with host operations. The kernel program computes the three dense pieces in three
  tiled calls (twenty row blocks of 5000 each): x · W1 + b1; relu h · [Wmu | Wls] + [bmu | bls], ONE product against the
  two weight matrices side by side whose column halves are then sliced apart; and mu + eps · exp ls. Its sparse products
  are the reference's own host operations. It feeds the matrix unit bf16 copies of the operands; at the ideal values a
  change of float format is the identity.

  Equal results, as extended reals: every entry of a dense call's result array is the finite sum Σ_k lhs (p, k) · rhs (k, q)
  plus the bias entry, which is also what the host's product plus spread bias is; column q of the concatenated layer reads
  column q of [Wmu | Wls] in every term, that is column q of Wmu (for q < 16) or column q − 16 of Wls; the sparse product is
  one function applied to equal operands on both sides; the last line is the same pointwise expression. No sum is regrouped
  against another and no factor is moved across a sum, so the inputs' finiteness is never used.

  The frames of the kernel program at both instances are the generated ones; the reference's is its generated run with the
  results dropped; the idealization ledger is empty.
-/
import proofs.«170805_j44633300140358_1_alg».proof.Defs
import proofs.«170805_j44633300140358_1_alg».proof.Proof.Gen.Kernel
import proofs.«170805_j44633300140358_1_alg».proof.Proof.Gen.Kernel.Skeleton
import proofs.«170805_j44633300140358_1_alg».proof.Proof.Gen.Kernel.Launch
import proofs.«170805_j44633300140358_1_alg».proof.Proof.Gen.Kernel.Points
import proofs.«170805_j44633300140358_1_alg».proof.Proof.Gen.Kernel.Frame
import proofs.«170805_j44633300140358_1_alg».proof.Proof.Gen.KernelIdeal
import proofs.«170805_j44633300140358_1_alg».proof.Proof.Gen.KernelIdeal.Skeleton
import proofs.«170805_j44633300140358_1_alg».proof.Proof.Gen.KernelIdeal.Launch
import proofs.«170805_j44633300140358_1_alg».proof.Proof.Gen.KernelIdeal.Points
import proofs.«170805_j44633300140358_1_alg».proof.Proof.Gen.KernelIdeal.Frame
import proofs.«170805_j44633300140358_1_alg».proof.Proof.Gen.ReferenceIdeal
import proofs.«170805_j44633300140358_1_alg».proof.Proof.Gen.Pre_finite_inputs
import proofs.«170805_j44633300140358_1_alg».proof.Proof.Gen.ReferenceIdeal.Run
import proofs.«170805_j44633300140358_1_alg».proof.Proof.KernelRun
import proofs.«170805_j44633300140358_1_alg».proof.Proof.KernelFold
import proofs.«170805_j44633300140358_1_alg».proof.Proof.RefSide
import proofs.«170805_j44633300140358_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run with its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with z, mu, ls of the arguments: the kernel program's run read through its five segments, the
    reference's run over the same named pieces, equal piece by piece from memories that agree on the arguments. -/
theorem algebraic : Cert.algebraic_KernelIdeal_ReferenceIdeal := by
  intro m ρ m' ρ' _ hagree
  refine ⟨fun c => Cert.KernelIdeal.Fold.z m c, fun c => Cert.KernelIdeal.Fold.mu m c, fun c => Cert.KernelIdeal.Fold.ls m c, ?_, ?_⟩
  · exact (θ_run Cert.KernelIdeal.defs _ _).mono
      (fun r h c => ⟨(h c).1.trans (Cert.KernelIdeal.Fold.W5_v45 m ρ c), (h c).2.1.trans (Cert.KernelIdeal.Fold.W5_v31 m ρ c),
        (h c).2.2.1.trans (Cert.KernelIdeal.Fold.W5_v44 m ρ c), (h c).2.2.2⟩)
      (Cert.KernelIdeal.Gen.run_vals (F := Ideal) m ρ)
  · exact (θ_run Cert.ReferenceIdeal.defs _ _).mono
      (fun r h c => ⟨(h c).1.trans (Cert.Bridge.z_eq m m' hagree c), (h c).2.1.trans (Cert.Bridge.mu_eq m m' hagree c),
        (h c).2.2.1.trans (Cert.Bridge.ls_eq m m' hagree c), (h c).2.2.2⟩)
      (Cert.ReferenceIdeal.RefTerm.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
